-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S1x64 : Shape := ⟨2, ![1, 64]⟩
abbrev S64x64 : Shape := ⟨2, ![64, 64]⟩
abbrev S1250000x64 : Shape := ⟨2, ![1250000, 64]⟩
abbrev S150000x1 : Shape := ⟨2, ![150000, 1]⟩
abbrev S1250000 : Shape := ⟨1, ![1250000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_
  bcast_S_S1250000x64 : S_.BroadcastsInDim S1250000x64 (![] : Fin 0 → Fin S1250000x64.rank)
  reducesTo_S1250000x64_S_d0_1 : S1250000x64.ReducesTo [0, 1] S_
  bcast_S_S150000x1 : S_.BroadcastsInDim S150000x1 (![] : Fin 0 → Fin S150000x1.rank)
  reducesTo_S150000x1_S_d0_1 : S150000x1.ReducesTo [0, 1] S_

variable [Facts]

def fn_part1 {F : FTy → Type} [FloatOps F] (main_arg4 : FVec F S1250000x64 .f32) (main_arg5 : FVec F S150000x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1250000x64 .f32 := Host.absf main_arg4
  let main_cst_6 : FVec F S_ .f32 := constant S_ .f32 0x7F800000#32
  let main_v20 : FVec F S1250000x64 .f32 := broadcastInDim S1250000x64 ![] bcast_S_S1250000x64 main_cst_6
  let main_v21 : IVec S1250000x64 1 := cmpf .olt main_v19 main_v20
  let main_c_7 : IVec S_ 1 := constantI S_ 1 1#1
  let main_v22 : IVec S_ 1 := (fun x v => Host.reduce IntOp.andi x v reducesTo_S1250000x64_S_d0_1 h_S_) main_v21 main_c_7
  let main_v23 : IVec S_ 1 := andi main_v18 main_v22
  let main_v24 : FVec F S150000x1 .f32 := Host.absf main_arg5
  let main_cst_8 : FVec F S_ .f32 := constant S_ .f32 0x7F800000#32
  let main_v25 : FVec F S150000x1 .f32 := broadcastInDim S150000x1 ![] bcast_S_S150000x1 main_cst_8
  let main_v26 : IVec S150000x1 1 := cmpf .olt main_v24 main_v25
  let main_c_9 : IVec S_ 1 := constantI S_ 1 1#1
  let main_v27 : IVec S_ 1 := (fun x v => Host.reduce IntOp.andi x v reducesTo_S150000x1_S_d0_1 h_S_) main_v26 main_c_9
  let main_v28 : IVec S_ 1 := andi main_v23 main_v27
  main_v28

def fn {F : FTy → Type} [FloatOps F] (main_arg0 : FVec F S150000x64 .f32) (main_arg1 : FVec F S150000x64 .f32) (main_arg2 : FVec F S1x64 .f32) (main_arg3 : FVec F S64x64 .f32) (main_arg4 : FVec F S1250000x64 .f32) (main_arg5 : FVec F S150000x1 .f32) (main_arg6 : IVec S1250000 32) (main_arg7 : IVec S1250000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S150000x64 : Shape := ⟨2, ![150000, 64]⟩
abbrev S1x64 : Shape := ⟨2, ![1, 64]⟩
abbrev S64x64 : Shape := ⟨2, ![64, 64]⟩
abbrev S1250000x64 : Shape := ⟨2, ![1250000, 64]⟩
abbrev S150000x1 : Shape := ⟨2, ![150000, 1]⟩
abbrev S1250000 : Shape := ⟨1, ![1250000]⟩
abbrev S_ : Shape := ⟨0, ![]⟩
abbrev S1250000x1 : Shape := ⟨2, ![1250000, 1]⟩
abbrev S5000x64 : Shape := ⟨2, ![5000, 64]⟩
abbrev S5000x1 : Shape := ⟨2, ![5000, 1]⟩
abbrev S1000x64 : Shape := ⟨2, ![1000, 64]⟩
abbrev S1000x1 : Shape := ⟨2, ![1000, 1]⟩

abbrev nBuf : Space → Nat
  | .hbm => 42
  | .vmem => 17
  | .smem => 0
  | _ => 0

abbrev bufTy : (tb : Table) → Fin (tcTables nBuf tb) → BufTy
  | .hbm, ⟨0, _⟩ => ⟨S150000x64, .f32⟩
  | .hbm, ⟨1, _⟩ => ⟨S150000x64, .f32⟩
  | .hbm, ⟨2, _⟩ => ⟨S1x64, .f32⟩
  | .hbm, ⟨3, _⟩ => ⟨S64x64, .f32⟩
  | .hbm, ⟨4, _⟩ => ⟨S1250000x64, .f32⟩
  | .hbm, ⟨5, _⟩ => ⟨S150000x1, .f32⟩
  | .hbm, ⟨6, _⟩ => ⟨S1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .i32⟩
  | .hbm, ⟨18, _⟩ => ⟨S1250000, .i32⟩
  | .hbm, ⟨19, _⟩ => ⟨S1250000, .i1⟩
  | .hbm, ⟨20, _⟩ => ⟨S_, .i32⟩
  | .hbm, ⟨21, _⟩ => ⟨S1250000, .i32⟩
  | .hbm, ⟨22, _⟩ => ⟨S1250000, .i32⟩
  | .hbm, ⟨23, _⟩ => ⟨S1250000, .i32⟩
  | .hbm, ⟨24, _⟩ => ⟨S1250000x1, .i32⟩
  | .hbm, ⟨25, _⟩ => ⟨S1250000x64, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x1, .f32⟩
  | .hbm, ⟨35, _⟩ => ⟨S64x64, .f32⟩
  | .hbm, ⟨36, _⟩ => ⟨S1250000x64, .f32⟩
  | .hbm, ⟨37, _⟩ => ⟨S_, .f32⟩
  | .hbm, ⟨38, _⟩ => ⟨S150000x64, .f32⟩
  | .hbm, ⟨39, _⟩ => ⟨S1250000x1, .i32⟩
  | .hbm, ⟨40, _⟩ => ⟨S150000x64, .f32⟩
  | .hbm, ⟨41, _⟩ => ⟨S150000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S1000x64, .f32⟩
  | .local _ .vmem, ⟨12, _⟩ => ⟨S1000x64, .f32⟩
  | .local _ .vmem, ⟨13, _⟩ => ⟨S1000x1, .f32⟩
  | .local _ .vmem, ⟨14, _⟩ => ⟨S1000x1, .f32⟩
  | .local _ .vmem, ⟨15, _⟩ => ⟨S1000x64, .f32⟩
  | .local _ .vmem, ⟨16, _⟩ => ⟨S1000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S150000x64 : S_.BroadcastsInDim S150000x64 (![] : Fin 0 → Fin S150000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  broadcasts_S1000x1_S1000x64 : S1000x1.Broadcasts S1000x64
  gather_S150000x64_S1250000x1_S1250000x64_1_0_n_n_0_1_164_wf : GatherDims.WF S150000x64 S1250000x1 S1250000x64 [1] [0] [] [0] [] 1 ![1, 64]
  gather_S150000x1_S1250000x1_S1250000x1_1_0_n_n_0_1_11_wf : GatherDims.WF S150000x1 S1250000x1 S1250000x1 [1] [0] [] [0] [] 1 ![1, 1]
  dot_S5000x64_S64x64_S5000x64_1_0_0_1_n_n_wf : DotDims.WF S5000x64 S64x64 S5000x64 [1] [0] [0] [1] [] []
  scatter_S150000x64_S1250000x1_S1250000x64_1_0_0_1_wf : ScatterDims.WF S150000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1250000x64.size a
  hwx0_0 : ∀ i : grid0.Coords, EltTy.bits .f32 = 32 ∨ (Rect.block (s := S1250000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1250000x64.size a
  hwx0_1 : ∀ i : grid0.Coords, EltTy.bits .f32 = 32 ∨ (Rect.block (s := S1250000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1250000x64.size a
  hwx0_2 : ∀ i : grid0.Coords, EltTy.bits .f32 = 32 ∨ (Rect.block (s := S1250000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S1250000x1.size a
  hwx0_3 : ∀ i : grid0.Coords, EltTy.bits .f32 = 32 ∨ (Rect.block (s := S1250000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S1250000x64.size a
  hwx0_5 : ∀ i : grid0.Coords, EltTy.bits .f32 = 32 ∨ (Rect.block (s := S1250000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S150000x64.size a
  hwx1_0 : ∀ i : grid1.Coords, EltTy.bits .f32 = 32 ∨ (Rect.block (s := S150000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S150000x1.size a
  hwx1_1 : ∀ i : grid1.Coords, EltTy.bits .f32 = 32 ∨ (Rect.block (s := S150000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S150000x64.size a
  hwx1_2 : ∀ i : grid1.Coords, EltTy.bits .f32 = 32 ∨ (Rect.block (s := S150000x64) S1000x64.size (cc1_transform_2 i) (hinb1_2 i)).WholeWords (EltTy.packing .f32)

variable [Facts₀]

def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def gather_S150000x1_S1250000x1_S1250000x1_1_0_n_n_0_1_11 : GatherDims S150000x1 S1250000x1 S1250000x1 where
  offsetDims := [1]
  collapsedSliceDims := [0]
  operandBatchingDims := []
  startIndicesBatchingDims := []
  startIndexMap := [0]
  indexVectorDim := 1
  sliceSizes := ![1, 1]
  wf := gather_S150000x1_S1250000x1_S1250000x1_1_0_n_n_0_1_11_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf

abbrev win0_0 : Pipeline.Window sig grid0 :=
  Pipeline.Window.ofSpec (Memref.whole main_arg4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S150000x64 : Shape := ⟨2, ![150000, 64]⟩
abbrev S1x64 : Shape := ⟨2, ![1, 64]⟩
abbrev S64x64 : Shape := ⟨2, ![64, 64]⟩
abbrev S1250000x64 : Shape := ⟨2, ![1250000, 64]⟩
abbrev S150000x1 : Shape := ⟨2, ![150000, 1]⟩
abbrev S1250000 : Shape := ⟨1, ![1250000]⟩
abbrev S_ : Shape := ⟨0, ![]⟩
abbrev S1250000x1 : Shape := ⟨2, ![1250000, 1]⟩

abbrev nBuf : Space → Nat
  | .hbm => 47
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S150000x64, .f32⟩
  | .hbm, ⟨2, _⟩ => ⟨S1x64, .f32⟩
  | .hbm, ⟨3, _⟩ => ⟨S64x64, .f32⟩
  | .hbm, ⟨4, _⟩ => ⟨S1250000x64, .f32⟩
  | .hbm, ⟨5, _⟩ => ⟨S150000x1, .f32⟩
  | .hbm, ⟨6, _⟩ => ⟨S1250000, .i32⟩
  | .hbm, ⟨7, _⟩ => ⟨S1250000, .i32⟩
  | .hbm, ⟨8, _⟩ => ⟨S64x64, .f32⟩
  | .hbm, ⟨9, _⟩ => ⟨S1250000x64, .f32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S_, .i32⟩
  | .hbm, ⟨20, _⟩ => ⟨S1250000, .i32⟩
  | .hbm, ⟨21, _⟩ => ⟨S1250000, .i1⟩
  | .hbm, ⟨22, _⟩ => ⟨S_, .i32⟩
  | .hbm, ⟨23, _⟩ => ⟨S1250000, .i32⟩
  | .hbm, ⟨24, _⟩ => ⟨S1250000, .i32⟩
  | .hbm, ⟨25, _⟩ => ⟨S1250000, .i32⟩
  | .hbm, ⟨26, _⟩ => ⟨S1250000x1, .i32⟩
  | .hbm, ⟨27, _⟩ => ⟨S1250000x64, .f32⟩
  | .hbm, ⟨28, _⟩ => ⟨S1250000x64, .f32⟩
  | .hbm, ⟨29, _⟩ => ⟨S1250000x64, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000x1, .f32⟩
  | .hbm, ⟨39, _⟩ => ⟨S1250000x64, .f32⟩
  | .hbm, ⟨40, _⟩ => ⟨S1250000x64, .f32⟩
  | .hbm, ⟨41, _⟩ => ⟨S_, .f32⟩
  | .hbm, ⟨42, _⟩ => ⟨S150000x64, .f32⟩
  | .hbm, ⟨43, _⟩ => ⟨S1250000x1, .i32⟩
  | .hbm, ⟨44, _⟩ => ⟨S150000x64, .f32⟩
  | .hbm, ⟨45, _⟩ => ⟨S150000x64, .f32⟩
  | .hbm, ⟨46, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  transposes_S64x64_S64x64_1_0 : S64x64.Transposes [1, 0] S64x64
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S150000x64 : S_.BroadcastsInDim S150000x64 (![] : Fin 0 → Fin S150000x64.rank)
  bcast_S150000x1_S150000x64_0_1 : S150000x1.BroadcastsInDim S150000x64 (![0, 1] : Fin 2 → Fin S150000x64.rank)
  dot_S1250000x64_S64x64_S1250000x64_1_0_0_1_n_n_wf : DotDims.WF S1250000x64 S64x64 S1250000x64 [1] [0] [0] [1] [] []
  gather_S150000x64_S1250000x1_S1250000x64_1_0_n_n_0_1_164_wf : GatherDims.WF S150000x64 S1250000x1 S1250000x64 [1] [0] [] [0] [] 1 ![1, 64]
  gather_S150000x1_S1250000x1_S1250000x1_1_0_n_n_0_1_11_wf : GatherDims.WF S150000x1 S1250000x1 S1250000x1 [1] [0] [] [0] [] 1 ![1, 1]
  scatter_S150000x64_S1250000x1_S1250000x64_1_0_0_1_wf : ScatterDims.WF S150000x64 S1250000x1 S1250000x64 [1] [0] [0] 1

variable [Facts₀]

def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def gather_S150000x64_S1250000x1_S1250000x64_1_0_n_n_0_1_164 : GatherDims S150000x64 S1250000x1 S1250000x64 where
  offsetDims := [1]
  collapsedSliceDims := [0]
  operandBatchingDims := []
  startIndicesBatchingDims := []
  startIndexMap := [0]
  indexVectorDim := 1
  sliceSizes := ![1, 64]
  wf := gather_S150000x64_S1250000x1_S1250000x64_1_0_n_n_0_1_164_wf
def gather_S150000x1_S1250000x1_S1250000x1_1_0_n_n_0_1_11 : GatherDims S150000x1 S1250000x1 S1250000x1 where
  offsetDims := [1]
  collapsedSliceDims := [0]
  operandBatchingDims := []
  startIndicesBatchingDims := []
  startIndexMap := [0]
  indexVectorDim := 1
  sliceSizes := ![1, 1]
  wf := gather_S150000x1_S1250000x1_S1250000x1_1_0_n_n_0_1_11_wf
def scatter_S150000x64_S1250000x1_S1250000x64_1_0_0_1 : ScatterDims S150000x64 S1250000x1 S1250000x64 where
  updateWindowDims := [1]
  insertedWindowDims := [0]
  scatterDimsToOperandDims := [0]
  indexVectorDim := 1
  wf := scatter_S150000x64_S1250000x1_S1250000x64_1_0_0_1_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.LibColumn.lean ====
/-
  A column kept beside a matrix (what `keepdims=True` leaves): a vector `[a]` cast to the column `[a, 1]`, and a column
  `[a, 1]` broadcast over the `b` lanes of `[a, b]`, each read at an index given by its coordinates; and the source index a
  reduction over the lanes of an `[a, b]` array folds over, by its coordinates.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the row `p` of an `[a, b]` array, the source index a reduction along the lanes visits at lane `k` is `(p, k)`. -/
theorem lift_lanes_ix1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Idealize.ShloMosaic.ValueIdx
-- ==== Proof.Payload.lean ====
/-
  The two kernel bodies at one entry, over the extended reals.

  The per-edge body, on a block of 5000 edges: with  r  the block of edge features,  w  the (already transposed)
  64 × 64 weight,  a  and  b  the gathered source rows and  s  the gathered source scale column, the stored block is

      ((a + b) + r · w) ⊙ s,      at (p, q):   (a(p,q) + b(p,q) + ∑ k < 64, r(p,k) · w(k,q)) · s(p,0).

  The narrowing of  r  and  w  to bf16 before the product is the identity on extended reals, the product into the zero
  accumulator is the plain sum over the shared axis, and the scale column is spread along the 64 lanes.

  The per-node body, on a block of 1000 nodes: the stored block is  h ⊙ s,  at (p, q):  h(p,q) · s(p,0).
-/
import proofs.«140215_j84335977824412_1_alg».proof.Proof.Gen.KernelIdeal.Skeleton
import proofs.«140215_j84335977824412_1_alg».proof.Proof.LibDotRowsCols
import proofs.«140215_j84335977824412_1_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The block product contracts the features of an edge (left axis 1) with the rows of the weight (right axis 0). -/
theorem edgeDot_rowsCols : Cert.Lib.DotRowsCols.RowsCols dot_S5000x64_S64x64_S5000x64_1_0_0_1_n_n :=
  ⟨rfl, rfl, rfl, rfl, rfl, rfl⟩

/-- The per-edge body's stored value at row `p`, lane `q` of the block. -/
theorem edge_payload_apply (r : Vec Ideal S5000x64 .f32) (w : Vec Ideal S64x64 .f32) (a b : Vec Ideal S5000x64 .f32)
    (s : Vec Ideal S5000x1 .f32) (p : Fin 5000) (q : Fin 64) :
    k0_pay1 (F := Ideal) r w a b s (ix2 p q)
      = (a (ix2 p q) + b (ix2 p q) + ∑ k : Fin 64, r (ix2 p k) * w (ix2 k q)) * s (ix2 p (0 : Fin 1)) := by
  unfold k0_pay1
  simp only [shapeCast_self]
  rw [mulf_apply, addf_apply, addf_apply, broadcastTo_a1_ab_apply, edgeDot_rowsCols.matmul_zero_apply]
  rfl

/-- The per-node body's stored value at row `p`, lane `q` of the block. -/
theorem node_payload_apply (h : Vec Ideal S1000x64 .f32) (s : Vec Ideal S1000x1 .f32) (p : Fin 1000) (q : Fin 64) :
    k1_pay1 (F := Ideal) h s (ix2 p q) = h (ix2 p q) * s (ix2 p (0 : Fin 1)) := by
  unfold k1_pay1
  simp only [shapeCast_self]
  rw [mulf_apply, broadcastTo_a1_ab_apply]

end Cert.KernelIdeal.Entry

end
-- ==== Proof.Spec.lean ====
/-
  What both programs compute, as functions of whole arrays over the extended reals.

  A graph of 150000 nodes and 1250000 edges, 64 features. For edge  e  with source node  src(e):

      msg(e, f) = (x(src e, f) + weight(src e, f) + ∑ k < 64, review(e, k) · wᵀ(k, f)) · ci(src e),

  then  h(n, ·)  sums  msg(e, ·)  over the edges whose destination is  n,  and the result is  h(n, f) · ci(n).
  The gathers by source node and the sum by destination node are the same host operations in both programs, so they
  stay unopened here: `edgeMsg` takes the gathered arrays, `nodeScale` the summed one, and `result` composes them
  through the gather and scatter operations given by their dimension records.
-/
import Idealize.ShloMosaic.PureOps.Ideal
import Idealize.ShloMosaic.Lib.ValueIdx

noncomputable section

open scoped BigOperators

namespace Cert.Spec

open Idealize.ShloMosaic Idealize.ShloMosaic.ValueIdx

abbrev SE64 : Shape := ⟨2, ![1250000, 64]⟩
abbrev SE1 : Shape := ⟨2, ![1250000, 1]⟩
abbrev SN64 : Shape := ⟨2, ![150000, 64]⟩
abbrev SN1 : Shape := ⟨2, ![150000, 1]⟩
abbrev SW : Shape := ⟨2, ![64, 64]⟩

/-- The message of every edge: the two gathered source rows `a`, `b` plus the edge's features `r` times the
    (transposed) weight `w`, scaled by the gathered source scale `s`. -/
def edgeMsg (r a b : SE64.Idx → EReal) (s : SE1.Idx → EReal) (w : SW.Idx → EReal) : SE64.Idx → EReal :=
  fun i => (a i + b i + ∑ k : Fin 64, r (ix2 (i 0) k) * w (ix2 k (i 1))) * s (ix2 (i 0) (0 : Fin 1))

/-- Every node's summed messages `h` scaled by the node's own scale `s`. -/
def nodeScale (h : SN64.Idx → EReal) (s : SN1.Idx → EReal) : SN64.Idx → EReal :=
  fun i => h i * s (ix2 (i 0) (0 : Fin 1))

/-- The whole result from the argument arrays: gather the source rows and scales at the (wrapped) source indices
    `si`, form the messages, sum them by destination `di` into `z`, scale by node. -/
def result (g : GatherDims SN64 SE1 SE64) (g1 : GatherDims SN1 SE1 SE1) (sc : ScatterDims SN64 SE1 SE64)
    (si di : IVec SE1 32) (z : SN64.Idx → EReal)
    (x wt : SN64.Idx → EReal) (w : SW.Idx → EReal) (r : SE64.Idx → EReal) (ci : SN1.Idx → EReal) : SN64.Idx → EReal :=
  nodeScale (Host.scatterAdd (F := Ideal) (φ := .f32) sc z di
    (edgeMsg r (Host.gather g x si) (Host.gather g wt si) (Host.gather g1 ci si) w)) ci

end Cert.Spec

end
-- ==== Proof.EdgeArray.lean ====
/-
  The per-edge region's output array, as one function of the arrays the region finds.

  The region walks the 1250000 edges in 250 blocks of 5000 rows. At block  t  every windowed array is read at rows
  5000·t … 5000·t + 4999, all 64 lanes (the scale column: its one lane), and the weight whole. So what block  t
  writes back is block  t  of the whole-array message  `edgeMsg`  of the arrays as the region finds them; the 250
  blocks tile the output array (row  r  lies in block  r / 5000), hence the array ends holding  `edgeMsg`.
-/
import proofs.«140215_j84335977824412_1_alg».proof.Proof.Gen.KernelIdeal.Frame
import proofs.«140215_j84335977824412_1_alg».proof.Proof.Payload
import proofs.«140215_j84335977824412_1_alg».proof.Proof.Spec
import Idealize.ShloMosaic.Lib.Pipeline.Value
import Idealize.ShloMosaic.Lib.ValueIdx

set_option maxRecDepth 16384

noncomputable section

open scoped BigOperators

namespace Cert.KernelIdeal.EdgeArray

open Cert.KernelIdeal Cert.KernelIdeal.Gen Cert.KernelIdeal.Entry Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the block's origin. -/
theorem origin : (![0, 0] : Fin 2 → Nat) = fun _ => 0 := funext fun a => by fin_cases a <;> rfl

/-- The body's stored value at an entry `j` of the block, by the entry's coordinates. -/
theorem edge_payload_at (r : Vec Ideal S5000x64 .f32) (w : Vec Ideal S64x64 .f32) (a b : Vec Ideal S5000x64 .f32)
    (s : Vec Ideal S5000x1 .f32) (j : S5000x64.Idx) :
    k0_pay1 (F := Ideal) r w a b s j
      = (a j + b j + ∑ k : Fin 64, r (ix2 (j 0) k) * w (ix2 k (j 1))) * s (ix2 (j 0) (0 : Fin 1)) := by
  obtain ⟨p, q, rfl⟩ : ∃ (p : Fin 5000) (q : Fin 64), j = ix2 p q := ⟨j 0, j 1, eq_ix2 j⟩
  exact edge_payload_apply r w a b s p q

/-- The block index maps over the grid: the five row-blocked windows sit at block (t, 0), the weight at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What block `t` writes back is block `t` of `edgeMsg` of the arrays as the region finds them. -/
theorem edge_flushed (c : Dev nD) (t : Fin cfg0.N) :
    (dat0 V c).flushed 5 t = ((cfg0.win 5).blk t).view.read (Elt Ideal)
      (edgeMsg (V c main_arg4) (V c main_v6) (V c main_v13) (V c main_v20) (V c main_v21)) := by
  show (cfg0.win 5).cut (grid0.coords t) ((dat0 V c).after 5 t) = _
  rw [after0_5]
  unfold out0_5
  rw [View.canon_unit_zero origin]
  simp only [View.ld_unit_zero (S := S5000x64) origin, View.ld_unit_zero (S := S64x64) origin,
    View.ld_unit_zero (S := S5000x1) origin]
  funext j
  refine (edge_payload_at (iblk0 V c 0 t) (iblk0 V c 4 t) (iblk0 V c 1 t) (iblk0 V c 2 t) (iblk0 V c 3 t) j).trans ?_
  obtain ⟨e00, e01, e10, e11, e20, e21, e30, e31, e40, e41, e50, e51⟩ := block_index t
  have hj0 : (j 0).val < 5000 := (j 0).isLt
  have hj1 : (j 1).val < 64 := (j 1).isLt
  -- the row-blocked operands are read where the output block sits
  have h1 : ((cfg0.win 1).blk t).view.emb j = ((cfg0.win 5).blk t).view.emb j := by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 64 + 1 * (j 1).val = win0_5.index t (1 : Fin 2) * 64 + 1 * (j 1).val; omega
  have h2 : ((cfg0.win 2).blk t).view.emb j = ((cfg0.win 5).blk t).view.emb j := by
    funext a; apply Fin.ext
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 64 + 1 * (j 1).val = win0_5.index t (1 : Fin 2) * 64 + 1 * (j 1).val; omega
  -- the edge features: the output's row, lane k
  have h0 : ∀ k : Fin 64, ((cfg0.win 0).blk t).view.emb (ix2 (j 0) k)
      = ix2 (n0 := 1250000) (n1 := 64) ((((cfg0.win 5).blk t).view.emb j) 0) k := fun k => by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 64 + 1 * k.val = k.val; omega
  -- the weight: row k, the output's lane
  have h4 : ∀ k : Fin 64, ((cfg0.win 4).blk t).view.emb (ix2 k (j 1))
      = ix2 (n0 := 64) (n1 := 64) k ((((cfg0.win 5).blk t).view.emb j) 1) := fun k => by
    funext a; apply Fin.ext
    match a with
    | ⟨0, _⟩ => show win0_4.index t (0 : Fin 2) * 64 + 1 * k.val = k.val; omega
    | ⟨1, _⟩ => show win0_4.index t (1 : Fin 2) * 64 + 1 * (j 1).val = win0_5.index t (1 : Fin 2) * 64 + 1 * (j 1).val; omega
  -- the scale column: the output's row
  have h3 : ((cfg0.win 3).blk t).view.emb (ix2 (j 0) (0 : Fin 1))
      = ix2 (n0 := 1250000) (n1 := 1) ((((cfg0.win 5).blk t).view.emb j) 0) (0 : Fin 1) := by
    funext a; apply Fin.ext
    match a with
    | ⟨0, _⟩ => show win0_3.index t (0 : Fin 2) * 5000 + 1 * (j 0).val = win0_5.index t (0 : Fin 2) * 5000 + 1 * (j 0).val; omega
    | ⟨1, _⟩ => show win0_3.index t (1 : Fin 2) * 1 + 1 * 0 = 0; omega
  rw [View.read_apply]
  unfold edgeMsg
  refine congrArg₂ (· * ·) (congrArg₂ (· + ·) (congrArg₂ (· + ·) ?_ ?_)
    (Finset.sum_congr rfl fun k _ => congrArg₂ (· * ·) ?_ ?_)) ?_
  · exact congrArg (V c main_v6) h1
  · exact congrArg (V c main_v13) h2
  · exact congrArg (V c main_arg4) (h0 k)
  · exact congrArg (V c main_v21) (h4 k)
  · exact congrArg (V c main_v20) h3

/-- An index of the output array is in block `t` iff each coordinate is in the block's range on its axis. -/
theorem mem_block (t : Fin cfg0.N) (i : S1250000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v22).slice (win0_5.rect t)).set ↔ _
  rw [View.set_slice_whole, Rect.mem_set_unit]
  exact Iff.rfl

/-- The blocks tile the output array: row `r` lies in block `r / 5000`. -/
theorem covered (i : S1250000x64.Idx) :
    ∃ t : Fin cfg0.N, (cfg0.win 5).flush t = true ∧ i ∈ ((cfg0.win 5).blk t).view.set := by
  have hi0 : (i 0).val < 1250000 := (i 0).isLt
  have hi1 : (i 1).val < 64 := (i 1).isLt
  have hN : (i 0).val / 5000 < cfg0.N := by show (i 0).val / 5000 < 250; omega
  refine ⟨⟨(i 0).val / 5000, hN⟩, flush0_5 _, ?_⟩
  obtain ⟨-, -, -, -, -, -, -, -, -, -, e50, e51⟩ := block_index ⟨(i 0).val / 5000, hN⟩
  rw [mem_block]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    rw [e51]; omega

/-- The output array after the region: `edgeMsg` of the arrays as the region finds them. -/
theorem edge_array (c : Dev nD) :
    (dat0 V c).arrAt 5 cfg0.N = edgeMsg (V c main_arg4) (V c main_v6) (V c main_v13) (V c main_v20) (V c main_v21) :=
  (dat0 V c).arrAt_eq_of_cover 5 _ (fun t _ => edge_flushed V c t) covered

end Cert.KernelIdeal.EdgeArray

end
-- ==== Proof.NodeArray.lean ====
/-
  The per-node region's output array, as one function of the arrays the region finds.

  The region walks the 150000 nodes in 150 blocks of 1000 rows; at block  t  the summed messages and the node scale
  column are read at rows 1000·t … 1000·t + 999. What block  t  writes back is block  t  of  `nodeScale`  of the two
  arrays; the 150 blocks tile the output array (row  r  lies in block  r / 1000), hence it ends holding  `nodeScale`.
-/
import proofs.«140215_j84335977824412_1_alg».proof.Proof.Gen.KernelIdeal.Frame
import proofs.«140215_j84335977824412_1_alg».proof.Proof.Payload
import proofs.«140215_j84335977824412_1_alg».proof.Proof.Spec
import Idealize.ShloMosaic.Lib.Pipeline.Value
import Idealize.ShloMosaic.Lib.ValueIdx

set_option maxRecDepth 16384

noncomputable section

open scoped BigOperators

namespace Cert.KernelIdeal.NodeArray

open Cert.KernelIdeal Cert.KernelIdeal.Gen Cert.KernelIdeal.Entry Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every access of the body starts at the block's origin. -/
theorem origin : (![0, 0] : Fin 2 → Nat) = fun _ => 0 := funext fun a => by fin_cases a <;> rfl

/-- The body's stored value at an entry `j` of the block, by the entry's coordinates. -/
theorem node_payload_at (h : Vec Ideal S1000x64 .f32) (s : Vec Ideal S1000x1 .f32) (j : S1000x64.Idx) :
    k1_pay1 (F := Ideal) h s j = h j * s (ix2 (j 0) (0 : Fin 1)) := by
  obtain ⟨p, q, rfl⟩ : ∃ (p : Fin 1000) (q : Fin 64), j = ix2 p q := ⟨j 0, j 1, eq_ix2 j⟩
  exact node_payload_apply h s p q

/-- The block index maps over the grid: all three windows sit at block (t, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What block `t` writes back is block `t` of `nodeScale` of the arrays as the region finds them. -/
theorem node_flushed (c : Dev nD) (t : Fin cfg1.N) :
    (dat1 V c).flushed 2 t = ((cfg1.win 2).blk t).view.read (Elt Ideal)
      (nodeScale (V c main_v25) (V c main_arg5)) := by
  show (cfg1.win 2).cut (grid1.coords t) ((dat1 V c).after 2 t) = _
  rw [after1_2]
  unfold out1_2
  rw [View.canon_unit_zero origin]
  simp only [View.ld_unit_zero (S := S1000x64) origin, View.ld_unit_zero (S := S1000x1) origin]
  funext j
  refine (node_payload_at (iblk1 V c 0 t) (iblk1 V c 1 t) j).trans ?_
  obtain ⟨e00, e01, e10, e11, e20, e21⟩ := block_index t
  have hj0 : (j 0).val < 1000 := (j 0).isLt
  have hj1 : (j 1).val < 64 := (j 1).isLt
  -- the summed messages are read where the output block sits
  have h0 : ((cfg1.win 0).blk t).view.emb j = ((cfg1.win 2).blk t).view.emb j := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 64 + 1 * (j 1).val = win1_2.index t (1 : Fin 2) * 64 + 1 * (j 1).val; omega
  -- the scale column: the output's row
  have h1 : ((cfg1.win 1).blk t).view.emb (ix2 (j 0) (0 : Fin 1))
      = ix2 (n0 := 150000) (n1 := 1) ((((cfg1.win 2).blk t).view.emb j) 0) (0 : Fin 1) := by
    funext a; apply Fin.ext
    match a with
    | ⟨0, _⟩ => show win1_1.index t (0 : Fin 2) * 1000 + 1 * (j 0).val = win1_2.index t (0 : Fin 2) * 1000 + 1 * (j 0).val; omega
    | ⟨1, _⟩ => show win1_1.index t (1 : Fin 2) * 1 + 1 * 0 = 0; omega
  rw [View.read_apply]
  unfold nodeScale
  refine congrArg₂ (· * ·) ?_ ?_
  · exact congrArg (V c main_v25) h0
  · exact congrArg (V c main_arg5) h1

/-- An index of the output array is in block `t` iff each coordinate is in the block's range on its axis. -/
theorem mem_block (t : Fin cfg1.N) (i : S150000x64.Idx) :
    i ∈ ((cfg1.win 2).blk t).view.set ↔ ∀ a : Fin 2, win1_2.index t a * S1000x64.size a ≤ (i a).val
      ∧ (i a).val < win1_2.index t a * S1000x64.size a + S1000x64.size a := by
  show i ∈ ((View.whole main_v26).slice (win1_2.rect t)).set ↔ _
  rw [View.set_slice_whole, Rect.mem_set_unit]
  exact Iff.rfl

/-- The blocks tile the output array: row `r` lies in block `r / 1000`. -/
theorem covered (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  have hN : (i 0).val / 1000 < cfg1.N := by show (i 0).val / 1000 < 150; omega
  refine ⟨⟨(i 0).val / 1000, hN⟩, flush1_2 _, ?_⟩
  obtain ⟨-, -, -, -, e20, e21⟩ := block_index ⟨(i 0).val / 1000, hN⟩
  rw [mem_block]
  intro a
  match a with
  | ⟨0, _⟩ =>
    show win1_2.index ⟨(i 0).val / 1000, hN⟩ (0 : Fin 2) * 1000 ≤ (i 0).val
      ∧ (i 0).val < win1_2.index ⟨(i 0).val / 1000, hN⟩ (0 : Fin 2) * 1000 + 1000
    rw [e20]; show (i 0).val / 1000 * 1000 ≤ (i 0).val ∧ (i 0).val < (i 0).val / 1000 * 1000 + 1000; omega
  | ⟨1, _⟩ =>
    show win1_2.index ⟨(i 0).val / 1000, hN⟩ (1 : Fin 2) * 64 ≤ (i 1).val
      ∧ (i 1).val < win1_2.index ⟨(i 0).val / 1000, hN⟩ (1 : Fin 2) * 64 + 64
    rw [e21]; omega

/-- The output array after the region: `nodeScale` of the arrays as the region finds them. -/
theorem node_array (c : Dev nD) :
    (dat1 V c).arrAt 2 cfg1.N = nodeScale (V c main_v25) (V c main_arg5) :=
  (dat1 V c).arrAt_eq_of_cover 2 _ (fun t _ => node_flushed V c t) covered

end Cert.KernelIdeal.NodeArray

end
-- ==== Proof.Whole.lean ====
/-
  The kernel program's result, as the specification's function of the argument arrays.

  Reading the run backwards from the result buffer: it is the per-node region's output array, `nodeScale` of the summed
  messages and the node scale as that region finds them; the summed messages are the host's sum by destination (into
  zeros, at the destination indices as a column) of the per-edge region's output array; that array is `edgeMsg` of what
  the per-edge region finds: the edge features, the two source-row gathers, the source-scale gather and the transposed
  weight, each a host operation on the argument arrays. No host operation and no region writes an argument array.
-/
import proofs.«140215_j84335977824412_1_alg».proof.Proof.Gen.KernelIdeal.Frame
import proofs.«140215_j84335977824412_1_alg».proof.Proof.EdgeArray
import proofs.«140215_j84335977824412_1_alg».proof.Proof.NodeArray
import proofs.«140215_j84335977824412_1_alg».proof.Proof.Spec
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The source indices as the gathers take them: a negative index wrapped by the number of nodes, as a column. -/
def srcIdx (s : IVec S1250000 32) : IVec S1250000x1 32 :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 150000#32))) s)

/-- The destination indices as a column. -/
def dstIdx (d : IVec S1250000 32) : IVec S1250000x1 32 :=
  broadcastInDim S1250000x1 ![0] bcast_S1250000_S1250000x1_0 d

/-- The array of zeros the sum by destination starts from. -/
def zeros : FVec Ideal S150000x64 .f32 :=
  broadcastInDim S150000x64 ![] bcast_S_S150000x64 (constant (F := Ideal) S_ .f32 0x00000000#32)

/-! ## What the per-edge region finds -/

theorem entry_review (c : Dev nD) : V1 m ρ c main_arg4 = m ((c : Thread nD τ).loc main_arg4) := by
  show StableHlo.after hostOps0 (W0 m ρ c) (Proc.devRef .tc main_arg4) = _
  after_results_simp <;> rfl

theorem entry_x_src (c : Dev nD) : V1 m ρ c main_v6
    = Host.gather gather_S150000x64_S1250000x1_S1250000x64_1_0_n_n_0_1_164 (m ((c : Thread nD τ).loc main_arg0))
        (srcIdx (m ((c : Thread nD τ).loc main_arg6))) := by
  show StableHlo.after hostOps0 (W0 m ρ c) (Proc.devRef .tc main_v6) = _
  after_results_simp <;> rfl

theorem entry_weight_src (c : Dev nD) : V1 m ρ c main_v13
    = Host.gather gather_S150000x64_S1250000x1_S1250000x64_1_0_n_n_0_1_164 (m ((c : Thread nD τ).loc main_arg1))
        (srcIdx (m ((c : Thread nD τ).loc main_arg6))) := by
  show StableHlo.after hostOps0 (W0 m ρ c) (Proc.devRef .tc main_v13) = _
  after_results_simp <;> rfl

theorem entry_ci_src (c : Dev nD) : V1 m ρ c main_v20
    = Host.gather gather_S150000x1_S1250000x1_S1250000x1_1_0_n_n_0_1_11 (m ((c : Thread nD τ).loc main_arg5))
        (srcIdx (m ((c : Thread nD τ).loc main_arg6))) := by
  show StableHlo.after hostOps0 (W0 m ρ c) (Proc.devRef .tc main_v20) = _
  after_results_simp <;> rfl

theorem entry_weight_t (c : Dev nD) : V1 m ρ c main_v21
    = transpose S64x64 [1, 0] (m ((c : Thread nD τ).loc main_arg3)) transposes_S64x64_S64x64_1_0 := by
  show StableHlo.after hostOps0 (W0 m ρ c) (Proc.devRef .tc main_v21) = _
  after_results_simp <;> rfl

/-! ## Between the regions -/

/-- The per-edge region's output array: the messages, from the argument arrays. -/
theorem msg_array (c : Dev nD) : W2 m ρ c (Proc.devRef .tc main_v22)
    = edgeMsg (m ((c : Thread nD τ).loc main_arg4))
        (Host.gather gather_S150000x64_S1250000x1_S1250000x64_1_0_n_n_0_1_164 (m ((c : Thread nD τ).loc main_arg0))
          (srcIdx (m ((c : Thread nD τ).loc main_arg6))))
        (Host.gather gather_S150000x64_S1250000x1_S1250000x64_1_0_n_n_0_1_164 (m ((c : Thread nD τ).loc main_arg1))
          (srcIdx (m ((c : Thread nD τ).loc main_arg6))))
        (Host.gather gather_S150000x1_S1250000x1_S1250000x1_1_0_n_n_0_1_11 (m ((c : Thread nD τ).loc main_arg5))
          (srcIdx (m ((c : Thread nD τ).loc main_arg6))))
        (transpose S64x64 [1, 0] (m ((c : Thread nD τ).loc main_arg3)) transposes_S64x64_S64x64_1_0) := by
  refine (W2_arr m ρ c 5).trans ((EdgeArray.edge_array (V1 m ρ) c).trans ?_)
  rw [entry_review, entry_x_src, entry_weight_src, entry_ci_src, entry_weight_t]

/-- The per-edge region leaves the destination indices as launched. -/
theorem mid_dst (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl

/-- The per-edge region leaves the node scale as launched. -/
theorem mid_ci (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp <;> rfl

/-! ## What the per-node region finds -/

theorem entry_summed (c : Dev nD) : V3 m ρ c main_v25
    = Host.scatterAdd (F := Ideal) scatter_S150000x64_S1250000x1_S1250000x64_1_0_0_1 zeros
        (dstIdx (W2 m ρ c (Proc.devRef .tc main_arg7))) (W2 m ρ c (Proc.devRef .tc main_v22)) := by
  show StableHlo.after hostOps1 (W2 m ρ c) (Proc.devRef .tc main_v25) = _
  after_results_simp <;> rfl

theorem entry_ci (c : Dev nD) : V3 m ρ c main_arg5 = m ((c : Thread nD τ).loc main_arg5) := by
  refine Eq.trans ?_ (mid_ci m ρ c)
  show StableHlo.after hostOps1 (W2 m ρ c) (Proc.devRef .tc main_arg5) = _
  after_results_simp <;> rfl

/-! ## The result -/

/-- The result buffer's last contents: the specification's `result` of the argument arrays, through this program's
    gather and scatter records. -/
theorem value (c : Dev nD) : W4 m ρ c (Proc.devRef .tc main_v26)
    = result gather_S150000x64_S1250000x1_S1250000x64_1_0_n_n_0_1_164 gather_S150000x1_S1250000x1_S1250000x1_1_0_n_n_0_1_11
        scatter_S150000x64_S1250000x1_S1250000x64_1_0_0_1
        (srcIdx (m ((c : Thread nD τ).loc main_arg6))) (dstIdx (m ((c : Thread nD τ).loc main_arg7))) zeros
        (m ((c : Thread nD τ).loc main_arg0)) (m ((c : Thread nD τ).loc main_arg1))
        (transpose S64x64 [1, 0] (m ((c : Thread nD τ).loc main_arg3)) transposes_S64x64_S64x64_1_0)
        (m ((c : Thread nD τ).loc main_arg4)) (m ((c : Thread nD τ).loc main_arg5)) := by
  refine (W4_arr m ρ c 2).trans ((NodeArray.node_array (V3 m ρ) c).trans ?_)
  rw [entry_summed, entry_ci, msg_array, mid_dst]
  rfl

end Cert.KernelIdeal.Whole

end
-- ==== Proof.RefValue.lean ====
/-
  The reference, stage by stage, is the shared specification.

  Its message stage is  ((x[src] + weight[src]) + review · wᵀ) ⊙ ci[src]  with the scale column spread along the lanes,
  which at an entry is `edgeMsg` of the gathered arrays and the transposed weight; its last stage multiplies the
  summed messages by the node scale spread along the lanes, which at an entry is `nodeScale`. The three gathers are
  taken at the same wrapped source indices (the wrap is computed three times, by the same operations).
-/
import proofs.«140215_j84335977824412_1_alg».proof.Proof.Gen.ReferenceIdeal.Read
import proofs.«140215_j84335977824412_1_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- The product's left operand is read at the entry's row, position `k`. -/
theorem lidx_eq (i : S1250000x64.Idx) (k : Fin 64) : lidx_main_v1 i k = ix2 (i 0) k :=
  funext fun a => Fin.ext (by match a with | ⟨0, _⟩ => rfl | ⟨1, _⟩ => rfl)

/-- The product's right operand is read at position `k`, the entry's lane. -/
theorem ridx_eq (i : S1250000x64.Idx) (k : Fin 64) : ridx_main_v1 i k = ix2 k (i 1) :=
  funext fun a => Fin.ext (by match a with | ⟨0, _⟩ => rfl | ⟨1, _⟩ => rfl)

/-- The edge scale column spread along the lanes is read at the entry's row. -/
theorem edge_col_eq (i : S1250000x64.Idx) : idx_main_v25 i = ix2 (i 0) (0 : Fin 1) :=
  funext fun a => Fin.ext (by match a with | ⟨0, _⟩ => rfl | ⟨1, _⟩ => rfl)

/-- The node scale column spread along the lanes is read at the entry's row. -/
theorem node_col_eq (i : S150000x64.Idx) : idx_main_v30 i = ix2 (i 0) (0 : Fin 1) :=
  funext fun a => Fin.ext (by match a with | ⟨0, _⟩ => rfl | ⟨1, _⟩ => rfl)

/-- The second and third wraps of the source indices are the first. -/
theorem wrap2_eq (x6 : (⟨S1250000, .i32⟩ : BufTy).Contents (Elt Ideal)) :
    val_main_v14 (F := Ideal) x6 = val_main_v7 (F := Ideal) x6 := rfl
theorem wrap3_eq (x6 : (⟨S1250000, .i32⟩ : BufTy).Contents (Elt Ideal)) :
    val_main_v23 (F := Ideal) x6 = val_main_v7 (F := Ideal) x6 := rfl

/-- The message stage is `edgeMsg` of the gathered arrays and the transposed weight. -/
theorem msg_eq (x0 x1 : (⟨S150000x64, .f32⟩ : BufTy).Contents (Elt Ideal)) (x3 : (⟨S64x64, .f32⟩ : BufTy).Contents (Elt Ideal))
    (x4 : (⟨S1250000x64, .f32⟩ : BufTy).Contents (Elt Ideal)) (x5 : (⟨S150000x1, .f32⟩ : BufTy).Contents (Elt Ideal))
    (x6 : (⟨S1250000, .i32⟩ : BufTy).Contents (Elt Ideal)) :
    val_main_v26 (F := Ideal) x0 x1 x3 x4 x5 x6
      = edgeMsg x4 (val_main_v8 (F := Ideal) x0 x6) (val_main_v15 (F := Ideal) x1 x6) (val_main_v24 (F := Ideal) x5 x6)
          (val_main_v0 (F := Ideal) x3) := by
  funext i
  rw [val_main_v26_apply, val_main_v17_apply, val_main_v16_apply, val_main_v1_apply, val_main_v25_apply, edge_col_eq]
  simp only [lidx_eq, ridx_eq, Ideal.addf_def, Ideal.mulf_def]
  rfl

/-- The last stage is `nodeScale` of the summed messages and the node scale. -/
theorem out_eq (x0 x1 : (⟨S150000x64, .f32⟩ : BufTy).Contents (Elt Ideal)) (x3 : (⟨S64x64, .f32⟩ : BufTy).Contents (Elt Ideal))
    (x4 : (⟨S1250000x64, .f32⟩ : BufTy).Contents (Elt Ideal)) (x5 : (⟨S150000x1, .f32⟩ : BufTy).Contents (Elt Ideal))
    (x6 x7 : (⟨S1250000, .i32⟩ : BufTy).Contents (Elt Ideal)) :
    val_main_v31 (F := Ideal) x0 x1 x3 x4 x5 x6 x7
      = nodeScale (val_main_v29 (F := Ideal) x0 x1 x3 x4 x5 x6 x7) x5 := by
  funext i
  rw [val_main_v31_apply, val_main_v30_apply, node_col_eq]
  rfl

/-- The reference's result is the specification's `result` through its own gather and scatter records, at the
    wrapped source indices, the destination indices as a column and the zero array. -/
theorem result_eq (x0 x1 : (⟨S150000x64, .f32⟩ : BufTy).Contents (Elt Ideal)) (x3 : (⟨S64x64, .f32⟩ : BufTy).Contents (Elt Ideal))
    (x4 : (⟨S1250000x64, .f32⟩ : BufTy).Contents (Elt Ideal)) (x5 : (⟨S150000x1, .f32⟩ : BufTy).Contents (Elt Ideal))
    (x6 x7 : (⟨S1250000, .i32⟩ : BufTy).Contents (Elt Ideal)) :
    val_main_v31 (F := Ideal) x0 x1 x3 x4 x5 x6 x7
      = result gather_S150000x64_S1250000x1_S1250000x64_1_0_n_n_0_1_164 gather_S150000x1_S1250000x1_S1250000x1_1_0_n_n_0_1_11
          scatter_S150000x64_S1250000x1_S1250000x64_1_0_0_1 (val_main_v7 (F := Ideal) x6) (val_main_v28 (F := Ideal) x7)
          (val_main_v27 (F := Ideal)) x0 x1 (val_main_v0 (F := Ideal) x3) x4 x5 := by
  rw [out_eq]
  unfold val_main_v29
  rw [msg_eq]
  unfold val_main_v8 val_main_v15 val_main_v24
  rw [wrap2_eq, wrap3_eq]
  rfl

end Cert.ReferenceIdeal.RefValue

end
-- ==== Proof.lean ====
/-
  The message-passing layer of a graph of 150000 nodes and 1250000 edges, 64 features: the kernel program against its
  plain reference, over the extended reals.

  Both programs gather the source node's two feature rows and its scale for every edge, add the edge's own features
  times the transposed 64 × 64 weight, scale, sum the messages by destination node and scale by the destination's
  scale. The kernel program computes the per-edge message and the per-node scaling in two blocked regions (the product
  a block of 5000 edges at a time, its operands narrowed to bf16 first, which changes nothing over the extended reals);
  the reference computes them as whole-array operations. The gathers and the sum by destination are the same host
  operations in both, and stay unopened: the two results are one term `Cert.Spec.result`, the kernel's through its
  regions' output arrays (`Cert.KernelIdeal.Whole.value`), the reference's stage by stage
  (`Cert.ReferenceIdeal.RefValue.result_eq`). Terms are added and multiplied in the same order on both sides, so no
  finiteness of the inputs is used.
-/
import proofs.«140215_j84335977824412_1_alg».proof.Defs
import proofs.«140215_j84335977824412_1_alg».proof.Proof.Gen.Kernel
import proofs.«140215_j84335977824412_1_alg».proof.Proof.Gen.Kernel.Skeleton
import proofs.«140215_j84335977824412_1_alg».proof.Proof.Gen.Kernel.Launch
import proofs.«140215_j84335977824412_1_alg».proof.Proof.Gen.Kernel.Points
import proofs.«140215_j84335977824412_1_alg».proof.Proof.Gen.Kernel.Frame
import proofs.«140215_j84335977824412_1_alg».proof.Proof.Gen.KernelIdeal
import proofs.«140215_j84335977824412_1_alg».proof.Proof.Gen.KernelIdeal.Skeleton
import proofs.«140215_j84335977824412_1_alg».proof.Proof.Gen.KernelIdeal.Launch
import proofs.«140215_j84335977824412_1_alg».proof.Proof.Gen.KernelIdeal.Points
import proofs.«140215_j84335977824412_1_alg».proof.Proof.Gen.KernelIdeal.Frame
import proofs.«140215_j84335977824412_1_alg».proof.Proof.Gen.ReferenceIdeal
import proofs.«140215_j84335977824412_1_alg».proof.Proof.Gen.Pre_finite_inputs
import proofs.«140215_j84335977824412_1_alg».proof.Proof.Gen.ReferenceIdeal.Run
import proofs.«140215_j84335977824412_1_alg».proof.Proof.Gen.ReferenceIdeal.Read
import proofs.«140215_j84335977824412_1_alg».proof.Proof.RunNamed
import proofs.«140215_j84335977824412_1_alg».proof.Proof.Whole
import proofs.«140215_j84335977824412_1_alg».proof.Proof.RefValue
import proofs.«140215_j84335977824412_1_alg».proof.Proof.Spec
import Idealize.ShloMosaic.Adequacy
import Idealize.ShloMosaic.Init

noncomputable section

namespace Cert.Proof

open Idealize.ShloMosaic Idealize.ShloMosaic.TcCoe Idealize.SL.Sem

/-- The two programs state the same gathers, the same sum by destination, the same index wrap and the same transpose:
    their dimension records have the same fields, so the reference's `result` is the kernel program's. -/
theorem result_agree (x0 x1 : Cert.Spec.SN64.Idx → EReal) (x3 : Cert.Spec.SW.Idx → EReal) (x4 : Cert.Spec.SE64.Idx → EReal)
    (x5 : Cert.Spec.SN1.Idx → EReal) (x6 x7 : IVec ⟨1, ![1250000]⟩ 32) :
    Cert.Spec.result Cert.ReferenceIdeal.gather_S150000x64_S1250000x1_S1250000x64_1_0_n_n_0_1_164
        Cert.ReferenceIdeal.gather_S150000x1_S1250000x1_S1250000x1_1_0_n_n_0_1_11
        Cert.ReferenceIdeal.scatter_S150000x64_S1250000x1_S1250000x64_1_0_0_1
        (Cert.ReferenceIdeal.Read.val_main_v7 (F := Ideal) x6) (Cert.ReferenceIdeal.Read.val_main_v28 (F := Ideal) x7)
        (Cert.ReferenceIdeal.Read.val_main_v27 (F := Ideal)) x0 x1 (Cert.ReferenceIdeal.Read.val_main_v0 (F := Ideal) x3) x4 x5
      = Cert.Spec.result Cert.KernelIdeal.gather_S150000x64_S1250000x1_S1250000x64_1_0_n_n_0_1_164
        Cert.KernelIdeal.gather_S150000x1_S1250000x1_S1250000x1_1_0_n_n_0_1_11
        Cert.KernelIdeal.scatter_S150000x64_S1250000x1_S1250000x64_1_0_0_1
        (Cert.KernelIdeal.Whole.srcIdx x6) (Cert.KernelIdeal.Whole.dstIdx x7) Cert.KernelIdeal.Whole.zeros x0 x1
        (transpose Cert.KernelIdeal.S64x64 [1, 0] x3 Cert.KernelIdeal.Facts₀.transposes_S64x64_S64x64_1_0) x4 x5 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's `result` of the arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Whole.value m ρ c), (h c).2⟩)
    (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7⟩ := hagree c
  rw [h0, h1, h3, h4, h5, h6, h7, Cert.ReferenceIdeal.Read.val_main_v31_eq, Cert.ReferenceIdeal.RefValue.result_eq]
  exact result_agree _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
